-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S_ : Shape := ⟨0, ![]⟩

class Facts : Prop where
  bcast_S_S32x400x10000 : S_.BroadcastsInDim S32x400x10000 (![] : Fin 0 → Fin S32x400x10000.rank)
  reducesTo_S32x400x10000_S_d0_1_2 : S32x400x10000.ReducesTo [0, 1, 2] S_
  h_S_ : 0 < S_.numel
  bcast_S_S400x10000 : S_.BroadcastsInDim S400x10000 (![] : Fin 0 → Fin S400x10000.rank)
  reducesTo_S400x10000_S_d0_1 : S400x10000.ReducesTo [0, 1] S_
  bcast_S_S1x4000000 : S_.BroadcastsInDim S1x4000000 (![] : Fin 0 → Fin S1x4000000.rank)
  reducesTo_S1x4000000_S_d0_1 : S1x4000000.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32x400x10000 .f32) (main_arg1 : FVec F S400x10000 .f32) (main_arg2 : FVec F S1x4000000 .f32) (main_arg3 : FVec F S1 .f32) : IVec S_ 1 :=
  let main_v0 : FVec F S32x400x10000 .f32 := Host.absf main_arg0
  let main_cst : FVec F S_ .f32 := constant S_ .f32 0x7F800000#32
  let main_v1 : FVec F S32x400x10000 .f32 := broadcastInDim S32x400x10000 ![] bcast_S_S32x400x10000 main_cst
  let main_v2 : IVec S32x400x10000 1 := cmpf .olt main_v0 main_v1
  let main_c : IVec S_ 1 := constantI S_ 1 1#1
  let main_v3 : IVec S_ 1 := (fun x v => Host.reduce IntOp.andi x v reducesTo_S32x400x10000_S_d0_1_2 h_S_) main_v2 main_c
  let main_v4 : FVec F S400x10000 .f32 := Host.absf main_arg1
  let main_cst_0 : FVec F S_ .f32 := constant S_ .f32 0x7F800000#32
  let main_v5 : FVec F S400x10000 .f32 := broadcastInDim S400x10000 ![] bcast_S_S400x10000 main_cst_0
  let main_v6 : IVec S400x10000 1 := cmpf .olt main_v4 main_v5
  let main_c_1 : IVec S_ 1 := constantI S_ 1 1#1
  let main_v7 : IVec S_ 1 := (fun x v => Host.reduce IntOp.andi x v reducesTo_S400x10000_S_d0_1 h_S_) main_v6 main_c_1
  let main_v8 : IVec S_ 1 := andi main_v3 main_v7
  let main_v9 : FVec F S1x4000000 .f32 := Host.absf main_arg2
  let main_cst_2 : FVec F S_ .f32 := constant S_ .f32 0x7F800000#32
  let main_v10 : FVec F S1x4000000 .f32 := broadcastInDim S1x4000000 ![] bcast_S_S1x4000000 main_cst_2
  let main_v11 : IVec S1x4000000 1 := cmpf .olt main_v9 main_v10
  let main_c_3 : IVec S_ 1 := constantI S_ 1 1#1
  let main_v12 : IVec S_ 1 := (fun x v => Host.reduce IntOp.andi x v reducesTo_S1x4000000_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S32x1 : Shape := ⟨2, ![32, 1]⟩
abbrev S16x8x10000 : Shape := ⟨3, ![16, 8, 10000]⟩
abbrev S8x10000 : Shape := ⟨2, ![8, 10000]⟩
abbrev S16x1 : Shape := ⟨2, ![16, 1]⟩
abbrev S1x8x10000 : Shape := ⟨3, ![1, 8, 10000]⟩
abbrev S16x8 : Shape := ⟨2, ![16, 8]⟩
abbrev S16 : Shape := ⟨1, ![16]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x400x10000, .f32⟩
  | .hbm, ⟨1, _⟩ => ⟨S400x10000, .f32⟩
  | .hbm, ⟨2, _⟩ => ⟨S1x4000000, .f32⟩
  | .hbm, ⟨3, _⟩ => ⟨S1, .f32⟩
  | .hbm, ⟨4, _⟩ => ⟨S400x10000, .f32⟩
  | .hbm, ⟨5, _⟩ => ⟨S32x1, .f32⟩
  | .hbm, ⟨6, _⟩ => ⟨S1x1, .f32⟩
  | .hbm, ⟨7, _⟩ => ⟨S32x1, .f32⟩
  | .hbm, ⟨8, _⟩ => ⟨S32x1, .f32⟩
  | .local _ .vmem, ⟨0, _⟩ => ⟨S16x8x10000, .f32⟩
  | .local _ .vmem, ⟨1, _⟩ => ⟨S16x8x10000, .f32⟩
  | .local _ .vmem, ⟨2, _⟩ => ⟨S8x10000, .f32⟩
  | .local _ .vmem, ⟨3, _⟩ => ⟨S8x10000, .f32⟩
  | .local _ .vmem, ⟨4, _⟩ => ⟨S8x10000, .f32⟩
  | .local _ .vmem, ⟨5, _⟩ => ⟨S8x10000, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | _, _ => ⟨S32x400x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v20 : BitVec 1 := Scalar.cmpi .eq arg1 c49_i32
  let v21 : BitVec 32 := Scalar.extui v20
  let c0_i32_12 : BitVec 32 := 0#32
  let v22 : BitVec 1 := Scalar.cmpi .ne v21 c0_i32_12
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x8x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x4000000_S400x10000 : S1x4000000.ShapeCasts S400x10000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x8x10000_S16x8x10000_0_0_0 : ∀ a, (![0, 0, 0] : Fin 3 → Nat) a + S16x8x10000.size a ≤ S16x8x10000.size a
  h_S16x8x10000 : 0 < S16x8x10000.numel
  inb_S8x10000_S8x10000_0_0 : ∀ a, (![0, 0] : Fin 2 → Nat) a + S8x10000.size a ≤ S8x10000.size a
  h_S8x10000 : 0 < S8x10000.numel
  shapeCasts_S8x10000_S8x10000 : S8x10000.ShapeCasts S8x10000
  shapeCasts_S8x10000_S1x8x10000 : S8x10000.ShapeCasts S1x8x10000
  broadcasts_S1x8x10000_S16x8x10000 : S1x8x10000.Broadcasts S16x8x10000
  reduces_S16x8x10000_S16x8 : S16x8x10000.Reduces [2] S16x8
  reduces_S16x8_S16 : S16x8.Reduces [1] S16
  shapeCasts_S16_S16x1 : S16.ShapeCasts S16x1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x10000.size a ≤ S32x400x10000.size a
  hwx0_0 : ∀ i : grid0.Coords, EltTy.bits .f32 = 32 ∨ (Rect.block (s := S32x400x10000) S16x8x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x10000.size a ≤ S400x10000.size a
  hwx0_1 : ∀ i : grid0.Coords, EltTy.bits .f32 = 32 ∨ (Rect.block (s := S400x10000) S8x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x10000.size a ≤ S400x10000.size a
  hwx0_2 : ∀ i : grid0.Coords, EltTy.bits .f32 = 32 ∨ (Rect.block (s := S400x10000) S8x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S32x1.size a
  hwx0_3 : ∀ i : grid0.Coords, EltTy.bits .f32 = 32 ∨ (Rect.block (s := S32x1) S16x1.size (cc0_transform_3 i) (hinb0_3 i)).WholeWords (EltTy.packing .f32)

variable [Facts₀]

abbrev win0_0 : Pipeline.Window sig grid0 :=
  Pipeline.Window.ofSpec (Memref.whole main_arg0) S16x8x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S1x400x10000 : Shape := ⟨3, ![1, 400, 10000]⟩
abbrev S32x4000000 : Shape := ⟨2, ![32, 4000000]⟩
abbrev S4000000x1 : Shape := ⟨2, ![4000000, 1]⟩
abbrev S32x1 : Shape := ⟨2, ![32, 1]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x400x10000, .f32⟩
  | .hbm, ⟨1, _⟩ => ⟨S400x10000, .f32⟩
  | .hbm, ⟨2, _⟩ => ⟨S1x4000000, .f32⟩
  | .hbm, ⟨3, _⟩ => ⟨S1, .f32⟩
  | .hbm, ⟨4, _⟩ => ⟨S400x10000, .f32⟩
  | .hbm, ⟨5, _⟩ => ⟨S1x400x10000, .f32⟩
  | .hbm, ⟨6, _⟩ => ⟨S32x400x10000, .f32⟩
  | .hbm, ⟨7, _⟩ => ⟨S32x400x10000, .f32⟩
  | .hbm, ⟨8, _⟩ => ⟨S32x4000000, .f32⟩
  | .hbm, ⟨9, _⟩ => ⟨S4000000x1, .f32⟩
  | .hbm, ⟨10, _⟩ => ⟨S32x1, .f32⟩
  | .hbm, ⟨11, _⟩ => ⟨S1x1, .f32⟩
  | .hbm, ⟨12, _⟩ => ⟨S32x1, .f32⟩
  | .hbm, ⟨13, _⟩ => ⟨S32x1, .f32⟩
  | _, _ => ⟨S32x400x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S400x10000_S1x400x10000_1_2 : S400x10000.BroadcastsInDim S1x400x10000 (![1, 2] : Fin 2 → Fin S1x400x10000.rank)
  bcast_S1x400x10000_S32x400x10000_0_1_2 : S1x400x10000.BroadcastsInDim S32x400x10000 (![0, 1, 2] : Fin 3 → Fin S32x400x10000.rank)
  shapeCasts_S32x400x10000_S32x4000000 : S32x400x10000.ShapeCasts S32x4000000
  transposes_S1x4000000_S4000000x1_1_0 : S1x4000000.Transposes [1, 0] S4000000x1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S32x4000000_S4000000x1_S32x1_1_0_0_1_n_n_wf : DotDims.WF S32x4000000 S4000000x1 S32x1 [1] [0] [0] [1] [] []

variable [Facts₀]

def dot_S32x4000000_S4000000x1_S32x1_1_0_0_1_n_n : DotDims S32x4000000 S4000000x1 S32x1 where
  lhsContracting := [1]
  rhsContracting := [0]
  lhsNonContracting := [0]
  rhsNonContracting := [1]
  lhsBatch := []
  rhsBatch := []
  wf := dot_S32x4000000_S4000000x1_S32x1_1_0_0_1_n_n_wf

class Facts : Prop extends Facts₀ where

variable [Facts]
-- ==== Proof.Pieces.lean ====
/-
  What each control case of the body leaves behind, as values.

  The body has three cases over the 100 grid points (2 batch tiles × 50 blocks of time steps):
    · the first block of a tile: the running total is reset to the zero column, then the block's sum is added to it;
    · a middle block: the block's sum is added to the total the block before left;
    · the last block of a tile: the same, and the new total is copied into the output block.
  In every case the carried total ends as the accumulating store's value `k0_pay2` of the three input blocks and of the total
  it started from (the zero column `k0_pay1` in the first case), and in the last case the output block holds that same value.
-/
import proofs.«167611_j91268055040039_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a tile: the total ends at the block's sum added to the zero column. -/
theorem total_first (c : Dev nD) (i : grid0.Coords) (a2 : Memref sig .tc .vmem S16x8x10000 .f32) (h2 : a2.IsWhole) (a3 : Memref sig .tc .vmem S8x10000 .f32) (h3 : a3.IsWhole) (a4 : Memref sig .tc .vmem S8x10000 .f32) (h4 : a4.IsWhole) (a5 : Memref sig .tc .vmem S16x1 .f32) (h5 : a5.IsWhole) (a6 : Memref sig .tc .vmem S16x1 .f32) (h6 : a6.IsWhole) (hc0 : cond0_0 i) (hc1 : ¬cond0_1 i)
    (x0 : Vec F S16x8x10000 .f32) (x1 x2 : Vec F S8x10000 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S16x1) hz2, View.readCov_unit_zero (S := S16x1) _ hz2]
  simp only [View.readAt_eq_ld, h2.read_unread, h3.read_unread, h4.read_unread,
    View.ld_unit_zero (S := S16x8x10000) hz3, View.ld_unit_zero (S := S8x10000) hz2]

/-- A middle block: the total ends at the block's sum added to the total it found. -/
theorem total_middle (c : Dev nD) (i : grid0.Coords) (a2 : Memref sig .tc .vmem S16x8x10000 .f32) (h2 : a2.IsWhole) (a3 : Memref sig .tc .vmem S8x10000 .f32) (h3 : a3.IsWhole) (a4 : Memref sig .tc .vmem S8x10000 .f32) (h4 : a4.IsWhole) (a5 : Memref sig .tc .vmem S16x1 .f32) (h5 : a5.IsWhole) (a6 : Memref sig .tc .vmem S16x1 .f32) (h6 : a6.IsWhole) (hc0 : ¬cond0_0 i) (hc1 : ¬cond0_1 i)
    (x0 : Vec F S16x8x10000 .f32) (x1 x2 : Vec F S8x10000 .f32) (xs0 : Vec F S16x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S16x8x10000) hz3, View.ld_unit_zero (S := S8x10000) hz2, View.ld_unit_zero (S := S16x1) hz2]

/-- The last block of a tile: the total ends the same way, -/
theorem total_last (c : Dev nD) (i : grid0.Coords) (a2 : Memref sig .tc .vmem S16x8x10000 .f32) (h2 : a2.IsWhole) (a3 : Memref sig .tc .vmem S8x10000 .f32) (h3 : a3.IsWhole) (a4 : Memref sig .tc .vmem S8x10000 .f32) (h4 : a4.IsWhole) (a5 : Memref sig .tc .vmem S16x1 .f32) (h5 : a5.IsWhole) (a6 : Memref sig .tc .vmem S16x1 .f32) (h6 : a6.IsWhole) (hc0 : ¬cond0_0 i) (hc1 : cond0_1 i)
    (x0 : Vec F S16x8x10000 .f32) (x1 x2 : Vec F S8x10000 .f32) (xs0 : Vec F S16x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S16x8x10000) hz3, View.ld_unit_zero (S := S8x10000) hz2, View.ld_unit_zero (S := S16x1) hz2]

/-- and the output block holds the new total (the total read back after the accumulating store). -/
theorem out_last (c : Dev nD) (i : grid0.Coords) (a2 : Memref sig .tc .vmem S16x8x10000 .f32) (h2 : a2.IsWhole) (a3 : Memref sig .tc .vmem S8x10000 .f32) (h3 : a3.IsWhole) (a4 : Memref sig .tc .vmem S8x10000 .f32) (h4 : a4.IsWhole) (a5 : Memref sig .tc .vmem S16x1 .f32) (h5 : a5.IsWhole) (a6 : Memref sig .tc .vmem S16x1 .f32) (h6 : a6.IsWhole) (hc0 : ¬cond0_0 i) (hc1 : cond0_1 i)
    (x0 : Vec F S16x8x10000 .f32) (x1 x2 : Vec F S8x10000 .f32) (xs0 : Vec F S16x1 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz2, View.readCov_unit_zero (S := S16x1) _ hz2]
  simp only [View.readAt_eq_ld, h2.read_unread, h3.read_unread, h4.read_unread, h6.read_unread,
    View.ld_unit_zero (S := S16x8x10000) hz3, View.ld_unit_zero (S := S8x10000) hz2, View.ld_unit_zero (S := S16x1) hz2]

end Cert.KernelIdeal.Pieces

end
-- ==== Proof.BodyValue.lean ====
/-
  The arithmetic of one grid point, read at an entry, on the extended reals.

  At a grid point the body holds a [16, 8, 10000] block `x` of the input, the matching [8, 10000] blocks `w` and `f` of the
  two weight arrays, and the running total `acc` (a [16, 1] column).  It stores

      acc(r) + Σ_{t' < 8} Σ_{p < 10000}  x(r, t', p) · (|w(t', p)| · f(t', p))

  for each of the 16 rows `r`: the product with the combined weight broadcast over the rows, a lane sum over the peaks, a
  sum over the 8 steps, the result laid out as a column.  At the first step of a batch tile it first stores a zero column
  and accumulates onto that.
-/
import proofs.«167611_j91268055040039_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

/-- A lane sum over the peaks of a [16, 8, 10000] block, at (row, step): the sum over the 10000 peaks. -/
theorem sum_peaks (v : FVec Ideal S16x8x10000 .f32) (h : S16x8x10000.Reduces [2] S16x8) (hφ : FKind.Formats .f32)
    (hacc : (0x00000000#32 : BitVec 32) = FKind.add.neutral .f32 hφ) (r : Fin 16) (t' : Fin 8) :
    multiReduction .add [2] S16x8 v 0x00000000#32 h hφ hacc (ix2 r t') = ∑ p : Fin 10000, v (ix3 r t' p) := by
  refine (Ideal.multiReduction_add_single v _ h hφ hacc (ix2 r t')).trans ?_
  refine Finset.sum_congr rfl fun p _ => congrArg v (funext fun a => Fin.ext ?_)
  match a with
  | ⟨0, _⟩ => rfl
  | ⟨1, _⟩ => rfl
  | ⟨2, _⟩ => rfl

/-- A sum over the steps of a [16, 8] array, at a row: the sum over the 8 steps. -/
theorem sum_steps (v : FVec Ideal S16x8 .f32) (h : S16x8.Reduces [1] S16) (hφ : FKind.Formats .f32)
    (hacc : (0x00000000#32 : BitVec 32) = FKind.add.neutral .f32 hφ) (r : Fin 16) :
    multiReduction .add [1] S16 v 0x00000000#32 h hφ hacc (ix1 r) = ∑ t' : Fin 8, v (ix2 r t') := by
  refine (Ideal.multiReduction_add_single v _ h hφ hacc (ix1 r)).trans ?_
  refine Finset.sum_congr rfl fun t' _ => congrArg v (funext fun a => Fin.ext ?_)
  match a with
  | ⟨0, _⟩ => rfl
  | ⟨1, _⟩ => rfl

/-- A vector of 16 laid out as a [16, 1] column reads its entry `r` at (r, 0). -/
theorem column_apply {α : Type} (v : S16.Idx → α) (h : S16.ShapeCasts S16x1) (r : Fin 16) (u : Fin 1) :
    shapeCast S16x1 v h (ix2 r u) = v (ix1 r) :=
  shapeCast_apply v h (ix2 r u) (ix1 r) (by
    have hu : u.val = 0 := by omega
    rw [Shape.rowMajor_val_one, Shape.rowMajor_val_two]
    show r.val = r.val * 1 + u.val
    omega)

/-- A [1, 8, 10000] array broadcast over 16 rows reads, at (r, t', p), the operand at (0, t', p). -/
theorem rows_apply {α : Type} (v : S1x8x10000.Idx → α) (h : S1x8x10000.Broadcasts S16x8x10000) (r : Fin 16) (t' : Fin 8)
    (p : Fin 10000) : broadcastTo S16x8x10000 v h (ix3 r t' p) = v (ix3 (0 : Fin 1) t' p) :=
  broadcastTo_apply v h (ix3 r t' p) (ix3 (0 : Fin 1) t' p) (fun a => match a with
    | ⟨0, _⟩ => by show 0 = if (1 : Nat) = 1 then 0 else r.val; rw [if_pos rfl]
    | ⟨1, _⟩ => by show t'.val = if (8 : Nat) = 1 then 0 else t'.val; rw [if_neg (by decide)]
    | ⟨2, _⟩ => by show p.val = if (10000 : Nat) = 1 then 0 else p.val; rw [if_neg (by decide)])

/-- The zero column the first step of a batch tile stores. -/
theorem reset_apply (j : S16x1.Idx) : (k0_pay1 (F := Ideal)) j = 0 := by
  unfold k0_pay1
  refine (congrFun (shapeCast_self _ _) j).trans ?_
  show Ideal.ofBits .f32 0x00000000#32 = 0
  exact Ideal.ofBits_zero_f32

/-- The accumulating store at row `r`: the running total there plus the block's sum over steps and peaks. -/
theorem accumulate_apply (x : FVec Ideal S16x8x10000 .f32) (w f : FVec Ideal S8x10000 .f32) (acc : FVec Ideal S16x1 .f32)
    (r : Fin 16) (u : Fin 1) :
    k0_pay2 (F := Ideal) x w f acc (ix2 r u)
      = acc (ix2 r u) + ∑ t' : Fin 8, ∑ p : Fin 10000,
          x (ix3 r t' p) * (max (w (ix2 t' p)) (-(w (ix2 t' p))) * f (ix2 t' p)) := by
  unfold k0_pay2
  refine (congrFun (shapeCast_self _ _) (ix2 r u)).trans ?_
  refine (addf_apply acc _ (ix2 r u)).trans ?_
  refine congrArg (acc (ix2 r u) + ·) ?_
  refine (column_apply _ _ r u).trans ?_
  refine (sum_steps _ _ _ _ r).trans ?_
  refine Finset.sum_congr rfl fun t' _ => ?_
  refine (sum_peaks _ _ _ _ r t').trans ?_
  refine Finset.sum_congr rfl fun p _ => ?_
  refine (mulf_apply x _ (ix3 r t' p)).trans ?_
  refine congrArg (x (ix3 r t' p) * ·) ?_
  refine (rows_apply _ _ r t' p).trans ?_
  refine (shapeCast_ab_1ab_apply _ _ (0 : Fin 1) t' p).trans ?_
  refine (mulf_apply _ _ (ix2 t' p)).trans ?_
  refine congrArg (max (w (ix2 t' p)) (-(w (ix2 t' p))) * ·) ?_
  exact congrFun (shapeCast_self f _) (ix2 t' p)

end Cert.KernelIdeal.BodyValue

end
-- ==== Proof.PeakSum.lean ====
/-
  The mathematics of this certificate, with no program in it.

  Both programs compute, for each batch row `b < 32`,

      out b = Σ_{t < 400} Σ_{p < 10000}  x(b,t,p) · |W(t,p)| · f(t·10000 + p)   +  bias,

  `f` the flat row of 4 000 000 weights.  The kernel walks the time axis in 50 blocks of 8 steps, adds the block's
  contribution `blk b j` (a sum over the 8 steps and the 10000 peaks of `x · (|W| · f)`) to a running total that starts at
  zero, and hands the total out after the 50th block.  The reference flattens (t,p) to `k = t·10000 + p` and takes one
  sum over `k` of `(x · |W|) · f`.  The two agree on the extended reals by the associativity of the product and by
  splitting a sum over `range (m·n)` into `m` sums over `range n` — both laws of a commutative monoid, so no
  finiteness of the inputs is used.

  Arrays are read here at NATURAL-NUMBER coordinates (`at3`, `at2`, `atFlat`: zero outside the array), so that the
  running total is a sum over `Finset.range` and grows by `Finset.sum_range_succ`.
-/
import Idealize.ShloMosaic.PureOps.Ideal
import Idealize.ShloMosaic.Lib.ValueIdx
import Mathlib.Algebra.BigOperators.Fin

noncomputable section

namespace Cert.PeakSum

open Idealize.ShloMosaic Idealize.ShloMosaic.ValueIdx

abbrev Sx : Shape := ⟨3, ![32, 400, 10000]⟩
abbrev Sw : Shape := ⟨2, ![400, 10000]⟩
abbrev Sf : Shape := ⟨2, ![1, 4000000]⟩
abbrev Sb : Shape := ⟨1, ![1]⟩
abbrev So : Shape := ⟨2, ![32, 1]⟩

/-- The absolute value on the extended reals, as both programs take it. -/
def eabs (a : EReal) : EReal := max a (-a)

/-- `x` at natural coordinates (zero outside the array). -/
def at3 (X : Sx.Idx → EReal) (b t p : ℕ) : EReal :=
  if h : b < 32 ∧ t < 400 ∧ p < 10000 then X (ix3 ⟨b, h.1⟩ ⟨t, h.2.1⟩ ⟨p, h.2.2⟩) else 0

/-- A [400, 10000] array at natural coordinates. -/
def at2 (W : Sw.Idx → EReal) (t p : ℕ) : EReal :=
  if h : t < 400 ∧ p < 10000 then W (ix2 ⟨t, h.1⟩ ⟨p, h.2⟩) else 0

/-- The flat weight row at a natural position. -/
def atFlat (A : Sf.Idx → EReal) (k : ℕ) : EReal :=
  if h : k < 4000000 then A (ix2 (0 : Fin 1) ⟨k, h⟩) else 0

theorem at3_of_lt (X : Sx.Idx → EReal) (b : Fin 32) (t : Fin 400) (p : Fin 10000) :
    at3 X b.val t.val p.val = X (ix3 b t p) := by
  unfold at3; rw [dif_pos ⟨b.isLt, t.isLt, p.isLt⟩]

theorem at2_of_lt (W : Sw.Idx → EReal) (t : Fin 400) (p : Fin 10000) :
    at2 W t.val p.val = W (ix2 t p) := by
  unfold at2; rw [dif_pos ⟨t.isLt, p.isLt⟩]

theorem atFlat_of_lt (A : Sf.Idx → EReal) (k : Fin 4000000) : atFlat A k.val = A (ix2 (0 : Fin 1) k) := by
  unfold atFlat; rw [dif_pos k.isLt]

/-- One (row, step, peak) term as the kernel groups it: `x · (|W| · f)`, `f` already laid out as [400, 10000]. -/
def term (X : Sx.Idx → EReal) (W Fw : Sw.Idx → EReal) (b t p : ℕ) : EReal :=
  at3 X b t p * (eabs (at2 W t p) * at2 Fw t p)

/-- What block `j` of 8 time steps adds to row `b`. -/
def blk (X : Sx.Idx → EReal) (W Fw : Sw.Idx → EReal) (b j : ℕ) : EReal :=
  ∑ t' : Fin 8, ∑ p : Fin 10000, term X W Fw b (8 * j + t'.val) p.val

/-- The running total of row `b` after blocks `0 … n`. -/
def upTo (X : Sx.Idx → EReal) (W Fw : Sw.Idx → EReal) (b n : ℕ) : EReal :=
  ∑ j ∈ Finset.range (n + 1), blk X W Fw b j

theorem upTo_zero (X : Sx.Idx → EReal) (W Fw : Sw.Idx → EReal) (b : ℕ) : upTo X W Fw b 0 = blk X W Fw b 0 := by
  unfold upTo; rw [Finset.sum_range_one]

theorem upTo_succ (X : Sx.Idx → EReal) (W Fw : Sw.Idx → EReal) (b n : ℕ) :
    upTo X W Fw b (n + 1) = upTo X W Fw b n + blk X W Fw b (n + 1) := by
  unfold upTo; rw [Finset.sum_range_succ]

/-- The reference's row: one sum over the flat position `k = t·10000 + p` of `(x · |W|) · f`. -/
def flatRow (X : Sx.Idx → EReal) (W : Sw.Idx → EReal) (A : Sf.Idx → EReal) (b : ℕ) : EReal :=
  ∑ k : Fin 4000000, (at3 X b (k.val / 10000) (k.val % 10000) * eabs (at2 W (k.val / 10000) (k.val % 10000))) * atFlat A k.val

/-- What both programs end with: at batch row `b` the flat sum of that row plus the one bias entry. -/
def result (X : Sx.Idx → EReal) (W : Sw.Idx → EReal) (A : Sf.Idx → EReal) (B : Sb.Idx → EReal) : So.Idx → EReal :=
  fun i => flatRow X W A (i 0).val + B (ix1 (0 : Fin 1))

/-- A sum over `range (m · n)` is `m` sums over `range n`. -/
theorem sum_range_mul {M : Type*} [AddCommMonoid M] (f : ℕ → M) (m n : ℕ) :
    ∑ k ∈ Finset.range (m * n), f k = ∑ a ∈ Finset.range m, ∑ b ∈ Finset.range n, f (a * n + b) := by
  induction m with
  | zero => simp
  | succ m ih => rw [Nat.succ_mul, Finset.sum_range_add, ih, Finset.sum_range_succ]

/-- THE LAW.  When `Fw` is the flat row `A` laid out row-major as [400, 10000], the total over the 50 blocks is the
    reference's flat sum: re-associate each product and split the flat sum twice (4 000 000 = 400 · 10000, 400 = 50 · 8). -/
theorem blocks_eq_flat (X : Sx.Idx → EReal) (W Fw : Sw.Idx → EReal) (A : Sf.Idx → EReal)
    (hF : ∀ t p : ℕ, t < 400 → p < 10000 → at2 Fw t p = atFlat A (t * 10000 + p)) (b : ℕ) :
    upTo X W Fw b 49 = flatRow X W A b := by
  unfold upTo flatRow
  rw [Fin.sum_univ_eq_sum_range (fun k => (at3 X b (k / 10000) (k % 10000) * eabs (at2 W (k / 10000) (k % 10000))) * atFlat A k) 4000000]
  rw [congrArg Finset.range (by norm_num : (4000000 : ℕ) = 400 * 10000), sum_range_mul _ 400 10000,
    congrArg Finset.range (by norm_num : (400 : ℕ) = 50 * 8), sum_range_mul _ 50 8]
  refine Finset.sum_congr rfl fun j hj => ?_
  have hj' : j < 50 := Finset.mem_range.mp hj
  unfold blk
  rw [Fin.sum_univ_eq_sum_range (fun t' => ∑ p : Fin 10000, term X W Fw b (8 * j + t') p.val) 8]
  refine Finset.sum_congr rfl fun t' ht => ?_
  have ht' : t' < 8 := Finset.mem_range.mp ht
  rw [Fin.sum_univ_eq_sum_range (fun p => term X W Fw b (8 * j + t') p) 10000]
  refine Finset.sum_congr rfl fun p hp => ?_
  have hp' : p < 10000 := Finset.mem_range.mp hp
  have e1 : ((j * 8 + t') * 10000 + p) / 10000 = 8 * j + t' := by omega
  have e2 : ((j * 8 + t') * 10000 + p) % 10000 = p := by omega
  rw [e1, e2]
  unfold term
  rw [hF (8 * j + t') p (by omega) hp', mul_assoc,
    show (8 * j + t') * 10000 + p = (j * 8 + t') * 10000 + p by omega]

end Cert.PeakSum

end
-- ==== Proof.Blocks.lean ====
/-
  Where each window's block sits in its array, and what the host line before the kernel region makes of the flat weights.

  The grid point `t < 100` is batch tile `t / 50` and time block `t % 50`.  The input window of `x` reads rows
  `16·(t/50) … +15`, steps `8·(t%50) … +7` and all 10000 peaks; the two weight windows read steps `8·(t%50) … +7` of
  their [400, 10000] arrays.  The second weight array is the flat row of 4 000 000 weights reshaped row-major, so its entry
  (t, p) is the flat entry `t·10000 + p`.
-/
import proofs.«167611_j91268055040039_1_alg».proof.Proof.Gen.KernelIdeal.Frame
import proofs.«167611_j91268055040039_1_alg».proof.Proof.PeakSum
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The three arrays the region stages, as it finds them, at their literal types. -/
abbrev xarr (c : Dev nD) : FVec Ideal S32x400x10000 .f32 := V m c main_arg0
abbrev warr (c : Dev nD) : FVec Ideal S400x10000 .f32 := V m c main_arg1
abbrev farr (c : Dev nD) : FVec Ideal S400x10000 .f32 := V m c main_v0

/-- The three input blocks at a grid point, at their literal types. -/
abbrev xblk (c : Dev nD) (t : Fin cfg0.N) : FVec Ideal S16x8x10000 .f32 := iblk m c 0 t
abbrev wblk (c : Dev nD) (t : Fin cfg0.N) : FVec Ideal S8x10000 .f32 := iblk m c 1 t
abbrev fblk (c : Dev nD) (t : Fin cfg0.N) : FVec Ideal S8x10000 .f32 := iblk m c 2 t

/-- The block indices of the four windows at a grid point: tile `t / 50`, time block `t % 50`. -/
theorem idx_x : ∀ t : Fin cfg0.N, win0_0.index t (0 : Fin 3) = t.val / 50 ∧ win0_0.index t (1 : Fin 3) = t.val % 50
    ∧ win0_0.index t (2 : Fin 3) = 0 :=
  (by decide +kernel : ∀ t : Fin grid0.N, _)
theorem idx_w : ∀ t : Fin cfg0.N, win0_1.index t (0 : Fin 2) = t.val % 50 ∧ win0_1.index t (1 : Fin 2) = 0 :=
  (by decide +kernel : ∀ t : Fin grid0.N, _)
theorem idx_f : ∀ t : Fin cfg0.N, win0_2.index t (0 : Fin 2) = t.val % 50 ∧ win0_2.index t (1 : Fin 2) = 0 :=
  (by decide +kernel : ∀ t : Fin grid0.N, _)
theorem idx_o : ∀ t : Fin cfg0.N, win0_3.index t (0 : Fin 2) = t.val / 50 ∧ win0_3.index t (1 : Fin 2) = 0 :=
  (by decide +kernel : ∀ t : Fin grid0.N, _)

theorem lt_100 (t : Fin cfg0.N) : t.val < 100 := lt_of_lt_of_eq t.isLt N_0

/-- The block of `x` at a point, read at (row, step, peak). -/
theorem xblk_apply (c : Dev nD) (t : Fin cfg0.N) (r : Fin 16) (t' : Fin 8) (p : Fin 10000) :
    xblk m c t (ix3 r t' p)
      = PeakSum.at3 (xarr m c) (16 * (t.val / 50) + r.val) (8 * (t.val % 50) + t'.val) p.val := by
  have hN := lt_100 t
  have hb : 16 * (t.val / 50) + r.val < 32 := by omega
  have ht : 8 * (t.val % 50) + t'.val < 400 := by omega
  obtain ⟨i0, i1, i2⟩ := idx_x t
  unfold PeakSum.at3
  rw [dif_pos ⟨hb, ht, p.isLt⟩]
  unfold xblk iblk
  rw [View.read_apply]
  show V m c main_arg0 _ = V m c main_arg0 _
  congr 1
  funext a
  apply Fin.ext
  match a with
  | ⟨0, _⟩ => show win0_0.index t 0 * 16 + 1 * r.val = 16 * (t.val / 50) + r.val; rw [i0]; omega
  | ⟨1, _⟩ => show win0_0.index t 1 * 8 + 1 * t'.val = 8 * (t.val % 50) + t'.val; rw [i1]; omega
  | ⟨2, _⟩ => show win0_0.index t 2 * 10000 + 1 * p.val = p.val; rw [i2]; omega

/-- The block of `W` at a point, read at (step, peak). -/
theorem wblk_apply (c : Dev nD) (t : Fin cfg0.N) (t' : Fin 8) (p : Fin 10000) :
    wblk m c t (ix2 t' p) = PeakSum.at2 (warr m c) (8 * (t.val % 50) + t'.val) p.val := by
  have hN := lt_100 t
  have ht : 8 * (t.val % 50) + t'.val < 400 := by omega
  obtain ⟨i0, i1⟩ := idx_w t
  unfold PeakSum.at2
  rw [dif_pos ⟨ht, p.isLt⟩]
  unfold wblk iblk
  rw [View.read_apply]
  show V m c main_arg1 _ = V m c main_arg1 _
  congr 1
  funext a
  apply Fin.ext
  match a with
  | ⟨0, _⟩ => show win0_1.index t 0 * 8 + 1 * t'.val = 8 * (t.val % 50) + t'.val; rw [i0]; omega
  | ⟨1, _⟩ => show win0_1.index t 1 * 10000 + 1 * p.val = p.val; rw [i1]; omega

/-- The block of the reshaped weights at a point, read at (step, peak). -/
theorem fblk_apply (c : Dev nD) (t : Fin cfg0.N) (t' : Fin 8) (p : Fin 10000) :
    fblk m c t (ix2 t' p) = PeakSum.at2 (farr m c) (8 * (t.val % 50) + t'.val) p.val := by
  have hN := lt_100 t
  have ht : 8 * (t.val % 50) + t'.val < 400 := by omega
  obtain ⟨i0, i1⟩ := idx_f t
  unfold PeakSum.at2
  rw [dif_pos ⟨ht, p.isLt⟩]
  unfold fblk iblk
  rw [View.read_apply]
  show V m c main_v0 _ = V m c main_v0 _
  congr 1
  funext a
  apply Fin.ext
  match a with
  | ⟨0, _⟩ => show win0_2.index t 0 * 8 + 1 * t'.val = 8 * (t.val % 50) + t'.val; rw [i0]; omega
  | ⟨1, _⟩ => show win0_2.index t 1 * 10000 + 1 * p.val = p.val; rw [i1]; omega

/-- The host line before the region: the second weight array is the flat weight row reshaped to [400, 10000]. -/
theorem farr_eq (c : Dev nD) :
    farr m c = shapeCast S400x10000 (m ((c : Thread nD τ).loc main_arg2)) shapeCasts_S1x4000000_S400x10000 := by
  show StableHlo.after hostOps0 (fun b => m (c, b)) (Proc.devRef .tc main_v0) = _
  after_results
  rfl

/-- So its entry (t, p) is the flat entry `t·10000 + p` (row-major). -/
theorem farr_flat (c : Dev nD) (t p : ℕ) (ht : t < 400) (hp : p < 10000) :
    PeakSum.at2 (farr m c) t p = PeakSum.atFlat (m ((c : Thread nD τ).loc main_arg2)) (t * 10000 + p) := by
  have hk : t * 10000 + p < 4000000 := by omega
  unfold PeakSum.at2 PeakSum.atFlat
  rw [dif_pos ⟨ht, hp⟩, dif_pos hk, farr_eq]
  refine shapeCast_apply _ _ _ _ ?_
  show (S1x4000000.rowMajor (ix2 (0 : Fin 1) ⟨t * 10000 + p, hk⟩)).val = (S400x10000.rowMajor (ix2 ⟨t, ht⟩ ⟨p, hp⟩)).val
  rw [Shape.rowMajor_val_two, Shape.rowMajor_val_two]
  show 0 * 4000000 + (t * 10000 + p) = t * 10000 + p
  omega

end Cert.KernelIdeal.Blocks

end
-- ==== Proof.Running.lean ====
/-
  The running total after each grid point.

  After grid point `n` (batch tile `n / 50`, time block `n % 50`) the carried [16, 1] column holds, at row `r`, the sum of
  the contributions of time blocks `0 … n % 50` to batch row `16·(n/50) + r`: the first block of a tile starts from the
  zero column, every later block adds its contribution to what the block before left.  By induction on the point.  At the
  last block of a tile the output block holds that same column.
-/
import proofs.«167611_j91268055040039_1_alg».proof.Proof.Pieces
import proofs.«167611_j91268055040039_1_alg».proof.Proof.BodyValue
import proofs.«167611_j91268055040039_1_alg».proof.Proof.Blocks

noncomputable section

namespace Cert.KernelIdeal.Running

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- What the blocks at point `t` add to row `r` of the tile is block `t % 50`'s contribution to batch row `16·(t/50) + r`. -/
theorem block_sum (c : Dev nD) (t : Fin cfg0.N) (r : Fin 16) :
    (∑ t' : Fin 8, ∑ p : Fin 10000, xblk m c t (ix3 r t' p)
        * (max (wblk m c t (ix2 t' p)) (-(wblk m c t (ix2 t' p))) * fblk m c t (ix2 t' p)))
      = PeakSum.blk (xarr m c) (warr m c) (farr m c) (16 * (t.val / 50) + r.val) (t.val % 50) := by
  unfold PeakSum.blk PeakSum.term PeakSum.eabs
  refine Finset.sum_congr rfl fun t' _ => Finset.sum_congr rfl fun p _ => ?_
  rw [xblk_apply, wblk_apply, fblk_apply]

/-- One accumulating step at point `t`, from any column `acc`. -/
theorem step (c : Dev nD) (t : Fin cfg0.N) (acc : FVec Ideal S16x1 .f32) (r : Fin 16) (u : Fin 1) :
    k0_pay2 (F := Ideal) (xblk m c t) (wblk m c t) (fblk m c t) acc (ix2 r u)
      = acc (ix2 r u) + PeakSum.blk (xarr m c) (warr m c) (farr m c) (16 * (t.val / 50) + r.val) (t.val % 50) :=
  (BodyValue.accumulate_apply (xblk m c t) (wblk m c t) (fblk m c t) acc r u).trans
    (congrArg (acc (ix2 r u) + ·) (block_sum m c t r))

/-- The carried column after the first block of a tile. -/
theorem carried_first (c : Dev nD) (t : Fin cfg0.N) (h0 : t.val % 50 = 0) (h1 : ¬t.val % 50 = 49) :
    (outsAt0 m c t.val t.isLt).2 = k0_pay2 (F := Ideal) (xblk m c t) (wblk m c t) (fblk m c t) (k0_pay1 (F := Ideal)) := by
  rw [outsAt0_A m c t h0 h1]
  dsimp only
  exact Pieces.total_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- The carried column after a middle block, over what the point before left. -/
theorem carried_middle (c : Dev nD) (t : Fin cfg0.N) (h0 : ¬t.val % 50 = 0) (h1 : ¬t.val % 50 = 49) :
    (outsAt0 m c t.val t.isLt).2 = k0_pay2 (F := Ideal) (xblk m c t) (wblk m c t) (fblk m c t)
      (outsAt0 m c (t.val - 1) (Nat.lt_of_le_of_lt (Nat.sub_le _ _) t.isLt)).2 := by
  rw [outsAt0_B m c t h0 h1]
  dsimp only
  exact Pieces.total_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- The carried column after the last block of a tile, over what the point before left, -/
theorem carried_last (c : Dev nD) (t : Fin cfg0.N) (h0 : ¬t.val % 50 = 0) (h1 : t.val % 50 = 49) :
    (outsAt0 m c t.val t.isLt).2 = k0_pay2 (F := Ideal) (xblk m c t) (wblk m c t) (fblk m c t)
      (outsAt0 m c (t.val - 1) (Nat.lt_of_le_of_lt (Nat.sub_le _ _) t.isLt)).2 := by
  rw [outsAt0_C m c t h0 h1]
  dsimp only
  exact Pieces.total_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output block there: the same column. -/
theorem output_last (c : Dev nD) (t : Fin cfg0.N) (h0 : ¬t.val % 50 = 0) (h1 : t.val % 50 = 49) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2).trans
    (Pieces.total_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2).symm

/-- THE RUNNING TOTAL: after point `n`, row `r` of the carried column is the sum over time blocks `0 … n % 50` of their
    contributions to batch row `16·(n/50) + r`. -/
theorem total_eq (c : Dev nD) : ∀ (n : ℕ) (h : n < cfg0.N) (r : Fin 16) (u : Fin 1),
    ((outsAt0 m c n h).2 : FVec Ideal S16x1 .f32) (ix2 r u)
      = PeakSum.upTo (xarr m c) (warr m c) (farr m c) (16 * (n / 50) + r.val) (n % 50)
  | 0, h, r, u => by
    rw [carried_first m c ⟨0, h⟩ rfl (by show ¬0 % 50 = 49; decide)]
    refine (step m c ⟨0, h⟩ _ r u).trans ?_
    rw [BodyValue.reset_apply, zero_add]
    exact (PeakSum.upTo_zero _ _ _ _).symm
  | n + 1, h, r, u => by
    have hN : n + 1 < 100 := lt_of_lt_of_eq h N_0
    by_cases h0 : (n + 1) % 50 = 0
    · have h1 : ¬(n + 1) % 50 = 49 := by omega
      rw [carried_first m c ⟨n + 1, h⟩ h0 h1]
      refine (step m c ⟨n + 1, h⟩ _ r u).trans ?_
      rw [BodyValue.reset_apply, zero_add]
      show PeakSum.blk _ _ _ (16 * ((n + 1) / 50) + r.val) ((n + 1) % 50) = _
      rw [h0]
      exact (PeakSum.upTo_zero _ _ _ _).symm
    · have e1 : (n + 1) / 50 = n / 50 := by omega
      have e2 : (n + 1) % 50 = n % 50 + 1 := by omega
      have hstep : ((outsAt0 m c (n + 1) h).2 : FVec Ideal S16x1 .f32)
          = k0_pay2 (F := Ideal) (xblk m c ⟨n + 1, h⟩) (wblk m c ⟨n + 1, h⟩) (fblk m c ⟨n + 1, h⟩)
              (outsAt0 m c n (Nat.lt_of_succ_lt h)).2 := by
        by_cases h1 : (n + 1) % 50 = 49
        · exact carried_last m c ⟨n + 1, h⟩ h0 h1
        · exact carried_middle m c ⟨n + 1, h⟩ h0 h1
      rw [hstep]
      refine (step m c ⟨n + 1, h⟩ _ r u).trans ?_
      rw [total_eq c n (Nat.lt_of_succ_lt h) r u]
      show PeakSum.upTo _ _ _ (16 * (n / 50) + r.val) (n % 50) + PeakSum.blk _ _ _ (16 * ((n + 1) / 50) + r.val) ((n + 1) % 50) = _
      rw [e1, e2]
      exact (PeakSum.upTo_succ _ _ _ _ _).symm

end Cert.KernelIdeal.Running

end
-- ==== Proof.Result.lean ====
/-
  The kernel program's result.

  The region's [32, 1] output array is written back twice, after the last time block of each batch tile, each time with the
  tile's 16 running totals; the two blocks cover the array, so row `b` ends at the total over all 50 time blocks.  The
  host lines after the region add the one bias entry to every row.  By the law of the sums this is the flat sum of row `b`
  plus the bias.
-/
import proofs.«167611_j91268055040039_1_alg».proof.Proof.Running
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.KernelIdeal.Blocks
open Idealize.ShloMosaic.Pipeline (Dat)

variable (m : (ℓ : Loc nD τ sig) → Buf (Elt Ideal) ℓ) (ρ : Dev nD → PrngReg)

/-- The region's output array: at batch row `b` the total over the 50 time blocks. -/
abbrev totals (c : Dev nD) : Buf (Elt Ideal) ((c : Thread nD τ).loc main_v1) :=
  fun (i : S32x1.Idx) => PeakSum.upTo (xarr m c) (warr m c) (farr m c) (i 0).val 49

/-- What a write-back point writes is its block of `totals`: the point is the last time block of tile `t / 50`, the
    output block there is the carried column, and row `r` of the tile is batch row `16·(t/50) + r`. -/
theorem flushed_eq (c : Dev nD) (t : Fin cfg0.N) (hf : (cfg0.win 3).flush t = true) :
    (dats m 0 c).flushed 3 t = ((cfg0.win 3).blk t).view.read (Elt Ideal) (totals m c) := by
  have h49 : t.val % 50 = 49 := (flush0_3 t).mp hf
  have h0 : ¬t.val % 50 = 0 := by omega
  obtain ⟨i0, i1⟩ := idx_o t
  show (cfg0.win 3).cut (grid0.coords t) ((dats m 0 c).after 3 t) = _
  rw [after0_3, Running.output_last m c t h0 h49]
  refine funext fun (j : S16x1.Idx) => ?_
  obtain ⟨r, u, rfl⟩ : ∃ (r : Fin 16) (u : Fin 1), j = ix2 r u := ⟨j 0, j 1, eq_ix2 j⟩
  rw [View.read_apply]
  show ((outsAt0 m c t.val t.isLt).2 : FVec Ideal S16x1 .f32) (ix2 r u)
    = PeakSum.upTo (xarr m c) (warr m c) (farr m c) ((((cfg0.win 3).blk t).view.emb (ix2 r u)) 0).val 49
  rw [Running.total_eq m c t.val t.isLt r u, h49]
  congr 1
  show 16 * (t.val / 50) + r.val = win0_3.index t 0 * 16 + 1 * r.val
  rw [i0]; omega

/-- A batch row is in point `t`'s output block iff each coordinate is in the block's range on its axis. -/
theorem mem_blk (t : Fin cfg0.N) (i : S32x1.Idx) :
    i ∈ ((cfg0.win 3).blk t).view.set ↔ ∀ a : Fin 2, win0_3.index t a * S16x1.size a ≤ (i a).val
      ∧ (i a).val < win0_3.index t a * S16x1.size a + S16x1.size a := by
  show i ∈ ((View.whole main_v1).slice (win0_3.rect t)).set ↔ _
  rw [View.set_slice_whole, Rect.mem_set_unit]
  exact Iff.rfl

/-- Every batch row lies in the block written back after the last time block of its tile. -/
theorem cover (c : Dev nD) (i : S32x1.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hlt : 50 * ((i 0).val / 16) + 49 < cfg0.N := by rw [show cfg0.N = 100 from N_0]; omega
  obtain ⟨i0, i1⟩ := idx_o ⟨50 * ((i 0).val / 16) + 49, hlt⟩
  have i0' : win0_3.index ⟨50 * ((i 0).val / 16) + 49, hlt⟩ (0 : Fin 2) = (50 * ((i 0).val / 16) + 49) / 50 := i0
  refine ⟨⟨50 * ((i 0).val / 16) + 49, hlt⟩,
    (flush0_3 _).mpr (by show (50 * ((i 0).val / 16) + 49) % 50 = 49; omega), ?_⟩
  rw [mem_blk]
  intro a
  match a with
  | ⟨0, _⟩ =>
    show win0_3.index ⟨50 * ((i 0).val / 16) + 49, hlt⟩ (0 : Fin 2) * 16 ≤ (i 0).val
      ∧ (i 0).val < win0_3.index ⟨50 * ((i 0).val / 16) + 49, hlt⟩ (0 : Fin 2) * 16 + 16
    rw [i0']; omega
  | ⟨1, _⟩ =>
    show win0_3.index ⟨50 * ((i 0).val / 16) + 49, hlt⟩ (1 : Fin 2) * 1 ≤ (i 1).val
      ∧ (i 1).val < win0_3.index ⟨50 * ((i 0).val / 16) + 49, hlt⟩ (1 : Fin 2) * 1 + 1
    rw [i1]; omega

/-- So the region's output array ends at `totals`. -/
theorem final_o (c : Dev nD) : (dats m 0 c).arrAt 3 cfg0.N = totals m c :=
  (dats m 0 c).arrAt_eq_of_cover 3 (totals m c) (flushed_eq m c) (cover c)

/-- The bias entry broadcast to [32, 1], read at a row. -/
theorem bias_apply (B : FVec Ideal S1 .f32) (i : S32x1.Idx) :
    broadcastInDim S32x1 ![0, 1] bcast_S1x1_S32x1_0_1 (broadcastInDim S1x1 ![1] bcast_S1_S1x1_1 B) i = B (ix1 (0 : Fin 1)) := by
  refine (broadcastInDim_apply _ bcast_S1x1_S32x1_0_1 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  exact broadcastInDim_apply _ bcast_S1_S1x1_1 B (ix2 (0 : Fin 1) (0 : Fin 1)) (ix1 (0 : Fin 1)) (fun a => match a with
    | ⟨0, _⟩ => by show 0 = if (1 : Nat) = 1 then 0 else 0; rw [if_pos rfl])

/-- The host lines after the region: the totals plus the broadcast bias. -/
theorem tail_eq (c : Dev nD) :
    (Pipeline.afterTail₀ cfgs (dats m) 0 (V0 m) [hostOps1] c main_v4 : FVec Ideal S32x1 .f32)
      = addf (F := Ideal) (s := S32x1) (φ := .f32) (totals m c) (broadcastInDim S32x1 ![0, 1] bcast_S1x1_S32x1_0_1
          (broadcastInDim S1x1 ![1] bcast_S1_S1x1_1 (m ((c : Thread nD τ).loc main_arg3) : FVec Ideal S1 .f32))) := by
  unfold Pipeline.afterTail₀
  show StableHlo.after (hostOps1 (F := Ideal)) _ (Proc.devRef .tc main_v4) = _
  after_results
  have e1 : Pipeline.withArrays (cfgs 0).spec c (V0 m c) (fun w => (dats m 0 c).arrAt w (cfgs 0).N)
      (Proc.devRef .tc main_v1) = totals m c :=
    (Pipeline.withArrays_arr spec0 launch0.win.arr_inj c _ _ 3).trans (final_o m c)
  have e3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  rw [e1, e3]

/-- The kernel program's result is the common one: at batch row `b` the total over the 50 blocks is the flat sum (the law
    of the sums, the second weight array being the flat row reshaped), and the tail adds the bias entry. -/
theorem value_eq (c : Dev nD) :
    addf (F := Ideal) (s := S32x1) (φ := .f32) (totals m c) (broadcastInDim S32x1 ![0, 1] bcast_S1x1_S32x1_0_1
        (broadcastInDim S1x1 ![1] bcast_S1_S1x1_1 (m ((c : Thread nD τ).loc main_arg3) : FVec Ideal S1 .f32)))
      = PeakSum.result (m ((c : Thread nD τ).loc main_arg0)) (m ((c : Thread nD τ).loc main_arg1)) (m ((c : Thread nD τ).loc main_arg2)) (m ((c : Thread nD τ).loc main_arg3)) := by
  funext i
  refine (addf_apply _ _ i).trans ?_
  unfold PeakSum.result
  refine congrArg₂ (fun a b : EReal => a + b) ?_ (bias_apply _ i)
  show PeakSum.upTo (xarr m c) (warr m c) (farr m c) (i 0).val 49 = _
  rw [PeakSum.blocks_eq_flat (xarr m c) (warr m c) (farr m c) (m ((c : Thread nD τ).loc main_arg2)) (farr_flat m c) (i 0).val]
  show PeakSum.flatRow (V m c main_arg0) (V m c main_arg1) _ _ = _
  rw [V_main_arg0, V_main_arg1]

/-- THE RUN, read: every weakly fair execution of the kernel program ends with its result at the common value and its
    arguments unchanged. -/
theorem run : θ_run defs (onTc (τ := τ) (main (F := Ideal))) ⟨m, fun _ => 0, ρ⟩ fun r => ∀ c : Dev nD,
      r.2.mem ((c.tc : Thread nD τ).loc main_v4)
        = PeakSum.result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans
        ((tail_eq m c).trans (value_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's result, index by index.

  The reference multiplies `x` by `|W|` broadcast over the batch, flattens (t, p) to `k = t·10000 + p`, and contracts with the
  flat weight row (transposed to a column), then adds the bias entry broadcast to [32, 1].  At batch row `b` that is the sum
  over `k < 4 000 000` of `(x(b, k / 10000, k % 10000) · |W(k / 10000, k % 10000)|) · f(k)`, plus the bias.
-/
import proofs.«167611_j91268055040039_1_alg».proof.Proof.Gen.ReferenceIdeal.Read
import proofs.«167611_j91268055040039_1_alg».proof.Proof.PeakSum

noncomputable section

namespace Cert.ReferenceIdeal.RefValue

open Cert.ReferenceIdeal Cert.ReferenceIdeal.Gen Cert.ReferenceIdeal.Read Idealize.ShloMosaic Idealize.ShloMosaic.ValueIdx

/-- The reference's composed term is the common result. -/
theorem ref_is_result (x0 : FVec Ideal S32x400x10000 .f32) (x1 : FVec Ideal S400x10000 .f32)
    (x2 : FVec Ideal S1x4000000 .f32) (x3 : FVec Ideal S1 .f32) :
    val_main_v9 (F := Ideal) x0 x1 x2 x3 = PeakSum.result x0 x1 x2 x3 := by
  funext i
  have hi0 : (i 0).val < 32 := (i 0).isLt
  have hi1 : (i 1).val < 1 := (i 1).isLt
  rw [val_main_v9_apply, val_main_v6_apply, val_main_v8_apply, val_main_v7_apply, Ideal.addf_def]
  unfold PeakSum.result PeakSum.flatRow
  refine congrArg₂ (fun a b : EReal => a + b) ?_ ?_
  · refine Finset.sum_congr rfl fun k _ => ?_
    have hk : k.val < 4000000 := k.isLt
    have hq : k.val / 10000 < 400 := by omega
    have hr : k.val % 10000 < 10000 := by omega
    rw [val_main_v4_apply, val_main_v3_apply, val_main_v2_apply, val_main_v1_apply, val_main_v0_apply, val_main_v5_apply,
      Ideal.mulf_def, Ideal.hostAbsf_def, Ideal.absf_def]
    unfold PeakSum.at3 PeakSum.at2 PeakSum.atFlat PeakSum.eabs
    rw [dif_pos ⟨hi0, hq, hr⟩, dif_pos ⟨hq, hr⟩, dif_pos hk]
    have eA : idx_main_v4 (lidx_main_v6 i k) = ix3 ⟨(i 0).val, hi0⟩ ⟨k.val / 10000, hq⟩ ⟨k.val % 10000, hr⟩ :=
      funext fun a => Fin.ext (by
        match a with
        | ⟨0, _⟩ => show ((i 0).val * 4000000 + k.val) / 4000000 = (i 0).val; omega
        | ⟨1, _⟩ => show ((i 0).val * 4000000 + k.val) / 10000 % 400 = k.val / 10000; omega
        | ⟨2, _⟩ => show ((i 0).val * 4000000 + k.val) % 10000 = k.val % 10000; omega)
    have eB : idx_main_v1 (idx_main_v2 (ix3 ⟨(i 0).val, hi0⟩ ⟨k.val / 10000, hq⟩ ⟨k.val % 10000, hr⟩))
        = ix2 ⟨k.val / 10000, hq⟩ ⟨k.val % 10000, hr⟩ :=
      funext fun a => Fin.ext (by
        match a with
        | ⟨0, _⟩ => rfl
        | ⟨1, _⟩ => rfl)
    have eC : idx_main_v5 (ridx_main_v6 i k) = ix2 (0 : Fin 1) ⟨k.val, hk⟩ :=
      funext fun a => Fin.ext (by
        match a with
        | ⟨0, _⟩ => show (i 1).val = 0; omega
        | ⟨1, _⟩ => rfl)
    rw [eA, eB, eC]
  · exact congrArg x3 (funext fun a => Fin.ext (by
      match a with
      | ⟨0, _⟩ => rfl))

end Cert.ReferenceIdeal.RefValue

end
-- ==== Proof.lean ====
/-
  The certificate of a weighted sum over time steps and peaks.

  For each of 32 batch rows `b` both programs compute

      out b = Σ_{t < 400} Σ_{p < 10000}  x(b,t,p) · |W(t,p)| · f(t·10000 + p)  +  bias,

  `f` a flat row of 4 000 000 weights.  The kernel reshapes `f` to [400, 10000] on the host, walks a grid of 2 batch tiles
  (16 rows each) × 50 blocks of 8 time steps, and at each point adds to a carried [16, 1] column the block's sum over steps
  and peaks of `x · (|W| · f)`: the column is reset to zero at the first block of a tile and copied to the output after the
  last; the host then adds the bias.  The reference multiplies `x` by `|W|`, flattens (t, p) to `k = t·10000 + p`, contracts
  with `f` over `k`, and adds the bias.

  On the extended reals the two agree (`algebraic`): the product is associative, and a sum over `range (m·n)` is `m` sums
  over `range n` — laws of a commutative monoid, which hold at the infinities too, so the finiteness of the inputs is not
  used.  The modules, in order: PeakSum (the mathematics, no program), BodyValue (one grid point's arithmetic at an entry),
  Pieces (what each control case of the body leaves), Blocks (where each block sits in its array; the reshaped weights),
  Running (the carried column after each point, by induction), Result (the output array, the host tail, the kernel program's
  run), RefValue (the reference's result index by index).  The three frames are the generated runs; the idealization
  rewrote nothing, so `preserves` is trivial.
-/
import proofs.«167611_j91268055040039_1_alg».proof.Defs
import proofs.«167611_j91268055040039_1_alg».proof.Proof.Gen.Kernel
import proofs.«167611_j91268055040039_1_alg».proof.Proof.Gen.Kernel.Skeleton
import proofs.«167611_j91268055040039_1_alg».proof.Proof.Gen.Kernel.Launch
import proofs.«167611_j91268055040039_1_alg».proof.Proof.Gen.Kernel.Points
import proofs.«167611_j91268055040039_1_alg».proof.Proof.Gen.Kernel.Frame
import proofs.«167611_j91268055040039_1_alg».proof.Proof.Gen.KernelIdeal
import proofs.«167611_j91268055040039_1_alg».proof.Proof.Gen.KernelIdeal.Skeleton
import proofs.«167611_j91268055040039_1_alg».proof.Proof.Gen.KernelIdeal.Launch
import proofs.«167611_j91268055040039_1_alg».proof.Proof.Gen.KernelIdeal.Points
import proofs.«167611_j91268055040039_1_alg».proof.Proof.Gen.KernelIdeal.Frame
import proofs.«167611_j91268055040039_1_alg».proof.Proof.Gen.ReferenceIdeal
import proofs.«167611_j91268055040039_1_alg».proof.Proof.Gen.ReferenceIdeal.Run
import proofs.«167611_j91268055040039_1_alg».proof.Proof.Gen.ReferenceIdeal.Read
import proofs.«167611_j91268055040039_1_alg».proof.Proof.Gen.Pre_finite_inputs
import proofs.«167611_j91268055040039_1_alg».proof.Proof.Result
import proofs.«167611_j91268055040039_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, nothing faults, and its arguments end unchanged. -/
theorem frame_k : Cert.frame_Kernel := fun m ρ _ => Cert.Kernel.Gen.frame m ρ

/-- The same of its idealization. -/
theorem frame_ki : Cert.frame_KernelIdeal := fun m ρ _ => Cert.KernelIdeal.Gen.frame m ρ

/-- The reference is ten host operations in a row: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end at the same [32, 1] array: at batch row `b` the flat
    sum of that row plus the bias entry. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
